-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S64x256 : Shape := ⟨2, ![64, 256]⟩
abbrev S40x64 : Shape := ⟨2, ![40, 64]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S40x64 : S_.BroadcastsInDim S40x64 (![] : Fin 0 → Fin S40x64.rank)
  reducesTo_S40x64_S_d0_1 : S40x64.ReducesTo [0, 1] S_

variable [Facts]

def fn {F : FTy → Type} [FloatOps F] (main_arg0 : FVec F S100000x256 .f32) (main_arg1 : FVec F S64x256 .f32) (main_arg2 : FVec F S40x64 .f32) (main_arg3 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S40x64 .f32 := Host.absf main_arg2
  let main_cst_2 : FVec F S_ .f32 := constant S_ .f32 0x7F800000#32
  let main_v10 : FVec F S40x64 .f32 := broadcastInDim S40x64 ![] bcast_S_S40x64 main_cst_2
  let main_v11 : IVec S40x64 1 := cmpf .olt main_v9 main_v10
  let main_c_3 : IVec S_ 1 := constantI S_ 1 1#1
  let main_v12 : IVec S_ 1 := (fun x v => Host.reduce IntOp.andi x v reducesTo_S40x64_S_d0_1 h_S_) main_v11 main_c_3
  let main_v13 : IVec S_ 1 := andi main_v8 main_v12
  main_v13
-- ==== Kernel.lean ====
abbrev S100000x256 : Shape := ⟨2, ![100000, 256]⟩
abbrev S64x256 : Shape := ⟨2, ![64, 256]⟩
abbrev S40x64 : Shape := ⟨2, ![40, 64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S100000x40 : Shape := ⟨2, ![100000, 40]⟩
abbrev S5000x40 : Shape := ⟨2, ![5000, 40]⟩
abbrev S1700000x40 : Shape := ⟨2, ![1700000, 40]⟩

abbrev nBuf : Space → Nat
  | .hbm => 78
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S64x256, .f32⟩
  | .hbm, ⟨2, _⟩ => ⟨S40x64, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S1700000x1, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S100000x40, .f32⟩
  | .hbm, ⟨62, _⟩ => ⟨S1700000x1, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x40, .f32⟩
  | .hbm, ⟨72, _⟩ => ⟨S1700000x40, .f32⟩
  | .hbm, ⟨73, _⟩ => ⟨S1700000x40, .f32⟩
  | .hbm, ⟨74, _⟩ => ⟨S_, .f32⟩
  | .hbm, ⟨75, _⟩ => ⟨S100000x40, .f32⟩
  | .hbm, ⟨76, _⟩ => ⟨S1700000x1, .i32⟩
  | .hbm, ⟨77, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S64x256, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S40x64, .f32⟩
  | .local _ .vmem, ⟨8, _⟩ => ⟨S5000x40, .f32⟩
  | .local _ .vmem, ⟨9, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S40x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S40x64_S40x64_0_0 : ∀ a, (![0, 0] : Fin 2 → Nat) a + S40x64.size a ≤ S40x64.size a
  h_S40x64 : 0 < S40x64.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S64x256_S5000x64_1_1_0_0_n_n_wf : DotDims.WF S5000x256 S64x256 S5000x64 [1] [1] [0] [0] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S40x64_S5000x40_1_1_0_0_n_n_wf : DotDims.WF S5000x64 S40x64 S5000x40 [1] [1] [0] [0] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S40x64.size a ≤ S40x64.size a
  hwx1_1 : ∀ i : grid1.Coords, EltTy.bits .f32 = 32 ∨ (Rect.block (s := S40x64) S40x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S64x256_S5000x64_1_1_0_0_n_n : DotDims S5000x256 S64x256 S5000x64 where
  lhsContracting := [1]
  rhsContracting := [1]
  lhsNonContracting := [0]
  rhsNonContracting := [0]
  lhsBatch := []
  rhsBatch := []
  wf := dot_S5000x256_S64x256_S5000x64_1_1_0_0_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S40x64_S5000x40_1_1_0_0_n_n : DotDims S5000x64 S40x64 S5000x40 where
  lhsContracting := [1]
  rhsContracting := [1]
  lhsNonContracting := [0]
  rhsNonContracting := [0]
  lhsBatch := []
  rhsBatch := []
  wf := dot_S5000x64_S40x64_S5000x40_1_1_0_0_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S40x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S64x256 : Shape := ⟨2, ![64, 256]⟩
abbrev S40x64 : Shape := ⟨2, ![40, 64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S256x64 : Shape := ⟨2, ![256, 64]⟩
abbrev S100000x64 : Shape := ⟨2, ![100000, 64]⟩
abbrev S1700000x64 : Shape := ⟨2, ![1700000, 64]⟩
abbrev S64x40 : Shape := ⟨2, ![64, 40]⟩
abbrev S100000x40 : Shape := ⟨2, ![100000, 40]⟩
abbrev S1700000x40 : Shape := ⟨2, ![1700000, 40]⟩

abbrev nBuf : Space → Nat
  | .hbm => 83
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S64x256, .f32⟩
  | .hbm, ⟨2, _⟩ => ⟨S40x64, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S256x64, .f32⟩
  | .hbm, ⟨45, _⟩ => ⟨S100000x64, .f32⟩
  | .hbm, ⟨46, _⟩ => ⟨S1700000x1, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S64x40, .f32⟩
  | .hbm, ⟨66, _⟩ => ⟨S100000x40, .f32⟩
  | .hbm, ⟨67, _⟩ => ⟨S1700000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x40, .f32⟩
  | .hbm, ⟨77, _⟩ => ⟨S1700000x40, .f32⟩
  | .hbm, ⟨78, _⟩ => ⟨S1700000x40, .f32⟩
  | .hbm, ⟨79, _⟩ => ⟨S_, .f32⟩
  | .hbm, ⟨80, _⟩ => ⟨S100000x40, .f32⟩
  | .hbm, ⟨81, _⟩ => ⟨S1700000x1, .i32⟩
  | .hbm, ⟨82, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call1_cst : Ref sig .tc := ⟨.hbm, 62, rfl⟩
abbrev main_call1_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x256_S256x64_1_0 : S64x256.Transposes [1, 0] S256x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S40x64_S64x40_1_0 : S40x64.Transposes [1, 0] S64x40
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Shared.lean ====
/-
  The stages the two programs share.

  Both programs compute the normalised adjacency in the same way: `rows`, `cols` (the edge list with the self loops
  appended) and the edge weights `w e = dinv[rows e] · dinv[cols e]`. Both then aggregate twice: `spmm h` gathers row
  `cols e` of `h` (a negative index wrapped by the row count), scales it by `w e`, and adds it into row `rows e` of a
  zero array. Between the two aggregations lies a dense layer `max(·, 0)` followed by a product with `W2ᵀ`; before the
  first, a product with `W1ᵀ`. So the result is

      spmm40 (layer2 (spmm64 (x · W1ᵀ)) W2)

  in both programs. Here the aggregations and the second layer are named once, as functions of `rows`, `cols`, `w` and
  of the array they aggregate; the reference's last stage is their composition (`ref_eq`); and each host stretch of the
  kernel's program, read from ANY contents `V` of the buffers at its start, is the same function of what `V` holds
  (`head_*`, `tail1`, `tail2`): the two programs print the same operations, so each equation closes by unfolding.
  Nothing here opens a gather or a scatter.
-/
import proofs.«106542_j66726611911374_1_alg».proof.Proof.RefRead
import proofs.«106542_j66726611911374_1_alg».proof.Proof.Gen.KernelIdeal.Launch

set_option maxRecDepth 16384

noncomputable section

namespace Cert.Shared

open Idealize.ShloMosaic Idealize.ShloMosaic.TcCoe Idealize.SL.Sem Idealize.ShloMosaic.StableHlo

variable {F : FTy → Type} [FloatOps F]

section Stages
open Cert.ReferenceIdeal Cert.ReferenceIdeal.Gen Cert.ReferenceIdeal.Read

/-- The index vector a gather reads rows at: `cols`, an entry below zero moved up by the row count 100000. -/
def wrap (cols : (⟨S1700000, .i32⟩ : BufTy).Contents (Elt F)) : (⟨S1700000x1, .i32⟩ : BufTy).Contents (Elt F) :=
  broadcastInDim S1700000x1 ![0] bcast_S1700000_S1700000x1_0
    (select (cmpi .slt cols (broadcastInDim S1700000 ![] bcast_S_S1700000 (constantI S_ 32 0#32)))
      (addi cols (broadcastInDim S1700000 ![] bcast_S_S1700000 (constantI S_ 32 100000#32))) cols)

/-- One aggregation over 64 columns: `out[rows e] += w e · h[cols e]` from zero. -/
def spmm64 (rows cols : (⟨S1700000, .i32⟩ : BufTy).Contents (Elt F)) (w : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 rows)
    (mulf (broadcastInDim S1700000x64 ![0, 1] bcast_S1700000x1_S1700000x64_0_1 (broadcastInDim S1700000x1 ![0] bcast_S1700000_S1700000x1_0 w))
      (Host.gather gather_S100000x64_S1700000x1_S1700000x64_1_0_n_n_0_1_164 h (wrap cols)))

/-- The same over 40 columns. -/
def spmm40 (rows cols : (⟨S1700000, .i32⟩ : BufTy).Contents (Elt F)) (w : (⟨S1700000, .f32⟩ : BufTy).Contents (Elt F))
    (h : (⟨S100000x40, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant S_ .f32 0x00000000#32))
    (broadcastInDim S1700000x1 ![0] bcast_S1700000_S1700000x1_0 rows)
    (mulf (broadcastInDim S1700000x40 ![0, 1] bcast_S1700000x1_S1700000x40_0_1 (broadcastInDim S1700000x1 ![0] bcast_S1700000_S1700000x1_0 w))
      (Host.gather gather_S100000x40_S1700000x1_S1700000x40_1_0_n_n_0_1_140 h (wrap cols)))

/-- The maximum with a broadcast zero, entry by entry. -/
def clamp (h : (⟨S100000x64, .f32⟩ : BufTy).Contents (Elt F)) : (⟨S100000x64, .f32⟩ : BufTy).Contents (Elt F) :=
  maximumf h (val_main_call1_v0 (F := F))

/-- The second dense layer as the reference spells it: `max(h, 0) · W2ᵀ`. -/
def layer2 (h : (⟨S100000x64, .f32⟩ : BufTy).Contents (Elt F)) (w2 : (⟨S40x64, .f32⟩ : BufTy).Contents (Elt F)) :
    (⟨S100000x40, .f32⟩ : BufTy).Contents (Elt F) :=
  Host.dotGeneral dot_S100000x64_S64x40_S100000x40_1_0_0_1_n_n none (clamp h) (val_main_v46 (F := F) w2)

/-- The reference's result is the composition: aggregate `x · W1ᵀ`, apply the second layer, aggregate again. -/
theorem ref_eq (x0 : (⟨S100000x256, .f32⟩ : BufTy).Contents (Elt F)) (x1 : (⟨S64x256, .f32⟩ : BufTy).Contents (Elt F))
    (x2 : (⟨S40x64, .f32⟩ : BufTy).Contents (Elt F)) (x3 : (⟨S2x1600000, .i32⟩ : BufTy).Contents (Elt F)) :
    val_main_v60 (F := F) x0 x1 x2 x3
      = spmm40 (val_main_v3 (F := F) x3) (val_main_v6 (F := F) x3) (val_main_v29 (F := F) x3)
          (layer2 (spmm64 (val_main_v3 (F := F) x3) (val_main_v6 (F := F) x3) (val_main_v29 (F := F) x3) (val_main_v31 (F := F) x0 x1)) x2) := rfl

/-- An entry of the clamped array, on the extended reals. -/
theorem clamp_apply (h : (⟨S100000x64, .f32⟩ : BufTy).Contents (Elt Ideal)) (i : S100000x64.Idx) :
    clamp (F := Ideal) h i = max (h i) (Ideal.ofBits .f32 0x00000000#32) := by
  show max (h i) (val_main_call1_v0 (F := Ideal) i) = _
  rw [val_main_call1_v0_apply, val_main_call1_cst_apply]
  rfl

/-- Entry `i` of the second layer: the sum over the 64 hidden columns `k` of `max(h[i₀, k], 0) · W2[i₁, k]`. -/
theorem layer2_apply (h : (⟨S100000x64, .f32⟩ : BufTy).Contents (Elt Ideal)) (w2 : (⟨S40x64, .f32⟩ : BufTy).Contents (Elt Ideal)) (i : S100000x40.Idx) :
    layer2 (F := Ideal) h w2 i
      = ∑ k : Fin 64, max (h (lidx_main_v47 i k)) (Ideal.ofBits .f32 0x00000000#32) * w2 (idx_main_v46 (ridx_main_v47 i k)) := by
  unfold layer2
  generalize hy : clamp (F := Ideal) h = y0
  simp only [Host.dotGeneral]
  rw [Ideal.dotGeneral_apply, ← Equiv.sum_comp (ValueIdx.contrEquiv1 dot_S100000x64_S64x40_S100000x40_1_0_0_1_n_n 64 rfl rfl).symm]
  refine Finset.sum_congr rfl fun k _ => ?_
  have hk := ValueIdx.contrEquiv1_symm_val dot_S100000x64_S64x40_S100000x40_1_0_0_1_n_n 64 rfl rfl k
  have el : dot_S100000x64_S64x40_S100000x40_1_0_0_1_n_n.lhsIdx i ((ValueIdx.contrEquiv1 dot_S100000x64_S64x40_S100000x40_1_0_0_1_n_n 64 rfl rfl).symm k) = lidx_main_v47 i k := funext fun a => Fin.ext (by
    match a with
    | ⟨0, _⟩ => exact lhs_main_v47_0 _ _
    | ⟨1, _⟩ => exact (lhs_main_v47_1 _ _).trans hk)
  have er : dot_S100000x64_S64x40_S100000x40_1_0_0_1_n_n.rhsIdx i ((ValueIdx.contrEquiv1 dot_S100000x64_S64x40_S100000x40_1_0_0_1_n_n 64 rfl rfl).symm k) = ridx_main_v47 i k := funext fun a => Fin.ext (by
    match a with
    | ⟨0, _⟩ => exact (rhs_main_v47_0 _ _).trans hk
    | ⟨1, _⟩ => exact rhs_main_v47_1 _ _)
  rw [el, er, val_main_v46_apply, ← hy, clamp_apply]

end Stages

section Kernel
open Cert.KernelIdeal Cert.KernelIdeal.Gen

/-! The kernel program's host stretches, from any contents `V` at their start. -/

set_option maxHeartbeats 8000000 in
/-- The last stretch leaves in the result array the aggregation of what the second pallas_call wrote. -/
theorem tail2 (V : Valuation τ sig (Elt F)) :
    StableHlo.after (hostOps2 (F := F)) V (Proc.devRef .tc main_v57)
      = spmm40 (V (Proc.devRef .tc main_v3)) (V (Proc.devRef .tc main_v6)) (V (Proc.devRef .tc main_v29)) (V (Proc.devRef .tc main_v44)) := by
  after_results_simp
  rfl

set_option maxHeartbeats 8000000 in
/-- The stretch between the two pallas_calls leaves in the second one's input the aggregation of what the first wrote. -/
theorem tail1 (V : Valuation τ sig (Elt F)) :
    StableHlo.after (hostOps1 (F := F)) V (Proc.devRef .tc main_v43)
      = spmm64 (V (Proc.devRef .tc main_v3)) (V (Proc.devRef .tc main_v6)) (V (Proc.devRef .tc main_v29)) (V (Proc.devRef .tc main_v30)) := by
  after_results_simp
  rfl

/-- The three stretches before the first pallas_call, as one fold. -/
abbrev head (V : Valuation τ sig (Elt F)) : Valuation τ sig (Elt F) :=
  StableHlo.after (hostOps0_2 (F := F)) (StableHlo.after hostOps0_1 (StableHlo.after hostOps0 V))

set_option maxHeartbeats 16000000 in
theorem head_rows (V : Valuation τ sig (Elt F)) :
    head V (Proc.devRef .tc main_v3) = Cert.ReferenceIdeal.Read.val_main_v3 (F := F) (V (Proc.devRef .tc main_arg3)) := by
  after_results_simp
  rfl

set_option maxHeartbeats 16000000 in
theorem head_cols (V : Valuation τ sig (Elt F)) :
    head V (Proc.devRef .tc main_v6) = Cert.ReferenceIdeal.Read.val_main_v6 (F := F) (V (Proc.devRef .tc main_arg3)) := by
  after_results_simp
  rfl

set_option maxHeartbeats 32000000 in
theorem head_w (V : Valuation τ sig (Elt F)) :
    head V (Proc.devRef .tc main_v29) = Cert.ReferenceIdeal.Read.val_main_v29 (F := F) (V (Proc.devRef .tc main_arg3)) := by
  after_results_simp
  rfl

end Kernel

end Cert.Shared

end
-- ==== Proof.Lin0.lean ====
/-
  What the first pallas_call leaves in its output array: `x · W1ᵀ`, the reference's own product.

  The grid has 20 points; point `t` reads rows `5000 t … 5000 t + 4999` of `x` (all 256 columns) and the whole of `W1`,
  and writes rows `5000 t … 5000 t + 4999` of the output (all 64 columns). Its body is one matrix product into a zero
  accumulator contracting the second axis of both operands, the operands first narrowed to bf16, which is the identity
  on the extended reals. So entry `(p, q)` of the block is `∑ k, x[5000 t + p, k] · W1[q, k]`, which is entry
  `(5000 t + p, q)` of the reference's `dot_general` of `x` with the transpose of `W1`. The 20 blocks tile the array
  (row `r` lies in block `r / 5000`), so the array ends holding that product everywhere.

  Stated at any contents `V` of the buffers at the region's entry, as the generated region half is.
-/
import proofs.«106542_j66726611911374_1_alg».proof.Proof.Gen.KernelIdeal.Frame
import proofs.«106542_j66726611911374_1_alg».proof.Proof.RefRead
import Idealize.ShloMosaic.Lib.ValueIdx
import Idealize.ShloMosaic.Lib.Pipeline.Value
import Idealize.ShloMosaic.PureOps.Ideal.Laws

set_option maxRecDepth 16384

noncomputable section

namespace Cert.KernelIdeal.Lin0

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's product at an entry -/

theorem lhs_0 (i : S5000x64.Idx) (q : dot_S5000x256_S64x256_S5000x64_1_1_0_0_n_n.contr.Idx) :
    (dot_S5000x256_S64x256_S5000x64_1_1_0_0_n_n.lhsIdx i q 0).val = (i 0).val := by
  unfold DotDims.lhsIdx
  rw [dif_neg (show ¬(0 : Fin S5000x256.rank) ∈ dot_S5000x256_S64x256_S5000x64_1_1_0_0_n_n.lhsBatch by decide), dif_pos (show (0 : Fin S5000x256.rank) ∈ dot_S5000x256_S64x256_S5000x64_1_1_0_0_n_n.lhsNonContracting by decide)]
  rfl
theorem lhs_1 (i : S5000x64.Idx) (q : dot_S5000x256_S64x256_S5000x64_1_1_0_0_n_n.contr.Idx) :
    (dot_S5000x256_S64x256_S5000x64_1_1_0_0_n_n.lhsIdx i q 1).val = (q ⟨0, by decide⟩).val :=
  dot_S5000x256_S64x256_S5000x64_1_1_0_0_n_n.lhsIdx_val_of_single rfl i q
theorem rhs_0 (i : S5000x64.Idx) (q : dot_S5000x256_S64x256_S5000x64_1_1_0_0_n_n.contr.Idx) :
    (dot_S5000x256_S64x256_S5000x64_1_1_0_0_n_n.rhsIdx i q 0).val = (i 1).val := by
  unfold DotDims.rhsIdx
  rw [dif_neg (show ¬(0 : Fin S64x256.rank) ∈ dot_S5000x256_S64x256_S5000x64_1_1_0_0_n_n.rhsBatch by decide), dif_pos (show (0 : Fin S64x256.rank) ∈ dot_S5000x256_S64x256_S5000x64_1_1_0_0_n_n.rhsNonContracting by decide)]
  rfl
theorem rhs_1 (i : S5000x64.Idx) (q : dot_S5000x256_S64x256_S5000x64_1_1_0_0_n_n.contr.Idx) :
    (dot_S5000x256_S64x256_S5000x64_1_1_0_0_n_n.rhsIdx i q 1).val = (q ⟨0, by decide⟩).val :=
  dot_S5000x256_S64x256_S5000x64_1_1_0_0_n_n.rhsIdx_val_of_single rfl i q

/-- Entry `i` of the body's stored value: the sum over the contracted axis of the two blocks' products. -/
theorem pay_apply (X0 : Vec Ideal S5000x256 .f32) (X1 : Vec Ideal S64x256 .f32) (i : S5000x64.Idx) :
    k0_pay1 (F := Ideal) X0 X1 i = ∑ k : Fin 256, X0 (ix2 (i 0) k) * X1 (ix2 (i 1) k) := by
  unfold k0_pay1
  simp only [matmul]
  rw [Ideal.matmul_constant_zero_apply, ← Equiv.sum_comp (contrEquiv1 dot_S5000x256_S64x256_S5000x64_1_1_0_0_n_n 256 rfl rfl).symm]
  refine Finset.sum_congr rfl fun k _ => ?_
  have hk := contrEquiv1_symm_val dot_S5000x256_S64x256_S5000x64_1_1_0_0_n_n 256 rfl rfl k
  have el : dot_S5000x256_S64x256_S5000x64_1_1_0_0_n_n.lhsIdx i ((contrEquiv1 dot_S5000x256_S64x256_S5000x64_1_1_0_0_n_n 256 rfl rfl).symm k) = ix2 (i 0) k := funext fun a => Fin.ext (by
    match a with
    | ⟨0, _⟩ => exact lhs_0 _ _
    | ⟨1, _⟩ => exact (lhs_1 _ _).trans hk)
  have er : dot_S5000x256_S64x256_S5000x64_1_1_0_0_n_n.rhsIdx i ((contrEquiv1 dot_S5000x256_S64x256_S5000x64_1_1_0_0_n_n 256 rfl rfl).symm k) = ix2 (i 1) k := funext fun a => Fin.ext (by
    match a with
    | ⟨0, _⟩ => exact rhs_0 _ _
    | ⟨1, _⟩ => exact (rhs_1 _ _).trans hk)
  rw [truncf_apply, truncf_apply, el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the three windows' blocks sit at point `t`: the row blocks of `x` and of the output are the `t`-th, `W1` is whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the reference's product of the arrays the region finds. -/
theorem flushed_eq (c : Dev nD) (t : Fin cfg0.N) :
    (dat0 V c).flushed 2 t = ((cfg0.win 2).blk t).view.read (Elt Ideal)
      (Cert.ReferenceIdeal.Read.val_main_v31 (F := Ideal) (V c main_arg0) (V c main_arg1)) := by
  show (cfg0.win 2).cut (grid0.coords t) ((dat0 V c).after 2 t) = _
  rw [after0_2]
  unfold out0_2
  rw [View.canon_unit_zero hz]
  simp only [View.ld_unit_zero (S := S5000x256) hz, View.ld_unit_zero (S := S64x256) hz]
  obtain ⟨e0, e1, e2, e3, e4, e5⟩ := idx_facts t
  funext j
  show k0_pay1 (F := Ideal) (iblk0 V c 0 t) (iblk0 V c 1 t) j
    = Cert.ReferenceIdeal.Read.val_main_v31 (F := Ideal) (V c main_arg0) (V c main_arg1) (((cfg0.win 2).blk t).view.emb j)
  refine (pay_apply (iblk0 V c 0 t) (iblk0 V c 1 t) j).trans ?_
  refine Eq.trans ?_ (Cert.ReferenceIdeal.Read.val_main_v31_apply (V c main_arg0) (V c main_arg1) (((cfg0.win 2).blk t).view.emb j)).symm
  refine Finset.sum_congr rfl fun k _ => ?_
  have hj0 : (j 0).val < 5000 := (j 0).isLt
  have hj1 : (j 1).val < 64 := (j 1).isLt
  have hA : iblk0 V c 0 t (ix2 (j 0) k)
      = V c main_arg0 (Cert.ReferenceIdeal.Read.lidx_main_v31 (((cfg0.win 2).blk t).view.emb j) k) := by
    show V c main_arg0 (((cfg0.win 0).blk t).view.emb (ix2 (j 0) k)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have hB : iblk0 V c 1 t (ix2 (j 1) k)
      = Cert.ReferenceIdeal.Read.val_main_v30 (F := Ideal) (V c main_arg1) (Cert.ReferenceIdeal.Read.ridx_main_v31 (((cfg0.win 2).blk t).view.emb j) k) := by
    refine Eq.trans ?_ (Cert.ReferenceIdeal.Read.val_main_v30_apply (V c main_arg1) (Cert.ReferenceIdeal.Read.ridx_main_v31 (((cfg0.win 2).blk t).view.emb j) k)).symm
    show V c main_arg1 (((cfg0.win 1).blk t).view.emb (ix2 (j 1) k)) = _
    refine congrArg (V c main_arg1) ?_
    funext a; apply Fin.ext
    match a with
    | ⟨0, _⟩ => show win0_1.index t (0 : Fin 2) * 64 + 1 * (j 1).val = win0_2.index t (1 : Fin 2) * 64 + 1 * (j 1).val; omega
    | ⟨1, _⟩ => show win0_1.index t (1 : Fin 2) * 256 + 1 * k.val = k.val; omega
  rw [hA, hB]

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every entry of the output array is written by some point: row `r` by point `r / 5000`. -/
theorem cover (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  obtain ⟨t, ht⟩ : ∃ t : Fin cfg0.N, t.val = (i 0).val / 5000 := ⟨⟨(i 0).val / 5000, Nat.lt_of_lt_of_eq (by omega) N_0.symm⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the reference's product of the arrays the region finds. -/
theorem final (c : Dev nD) :
    (dat0 V c).arrAt 2 cfg0.N = Cert.ReferenceIdeal.Read.val_main_v31 (F := Ideal) (V c main_arg0) (V c main_arg1) :=
  (dat0 V c).arrAt_eq_of_cover 2 _ (fun t _ => flushed_eq V c t) cover

end Cert.KernelIdeal.Lin0

end
-- ==== Proof.Lin1.lean ====
/-
  What the second pallas_call leaves in its output array: the second layer `max(h, 0) · W2ᵀ` of its input array `h`.

  The grid has 20 points; point `t` reads rows `5000 t … 5000 t + 4999` of `h` (all 64 columns) and the whole of `W2`,
  and writes rows `5000 t … 5000 t + 4999` of the output (all 40 columns). Its body takes the maximum of its block with a
  splat zero and multiplies by `W2` into a zero accumulator, contracting the second axis of both operands; the narrowing
  to bf16 before the product is the identity on the extended reals, and so is the shape cast of the block to its own
  shape. So entry `(p, q)` of the block is `∑ k, max(h[5000 t + p, k], 0) · W2[q, k]`: entry `(5000 t + p, q)` of the
  second layer as the reference spells it (a maximum with a broadcast zero, then a `dot_general` with the transpose of
  `W2`). The 20 blocks tile the array (row `r` lies in block `r / 5000`), so the array ends holding the second layer.

  Stated at any contents `V` of the buffers at the region's entry, as the generated region half is.
-/
import proofs.«106542_j66726611911374_1_alg».proof.Proof.Gen.KernelIdeal.Frame
import proofs.«106542_j66726611911374_1_alg».proof.Proof.Shared
import Idealize.ShloMosaic.Lib.ValueIdx
import Idealize.ShloMosaic.Lib.Pipeline.Value
import Idealize.ShloMosaic.PureOps.Ideal.Laws

set_option maxRecDepth 16384

noncomputable section

namespace Cert.KernelIdeal.Lin1

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's product at an entry -/

theorem lhs_0 (i : S5000x40.Idx) (q : dot_S5000x64_S40x64_S5000x40_1_1_0_0_n_n.contr.Idx) :
    (dot_S5000x64_S40x64_S5000x40_1_1_0_0_n_n.lhsIdx i q 0).val = (i 0).val := by
  unfold DotDims.lhsIdx
  rw [dif_neg (show ¬(0 : Fin S5000x64.rank) ∈ dot_S5000x64_S40x64_S5000x40_1_1_0_0_n_n.lhsBatch by decide), dif_pos (show (0 : Fin S5000x64.rank) ∈ dot_S5000x64_S40x64_S5000x40_1_1_0_0_n_n.lhsNonContracting by decide)]
  rfl
theorem lhs_1 (i : S5000x40.Idx) (q : dot_S5000x64_S40x64_S5000x40_1_1_0_0_n_n.contr.Idx) :
    (dot_S5000x64_S40x64_S5000x40_1_1_0_0_n_n.lhsIdx i q 1).val = (q ⟨0, by decide⟩).val :=
  dot_S5000x64_S40x64_S5000x40_1_1_0_0_n_n.lhsIdx_val_of_single rfl i q
theorem rhs_0 (i : S5000x40.Idx) (q : dot_S5000x64_S40x64_S5000x40_1_1_0_0_n_n.contr.Idx) :
    (dot_S5000x64_S40x64_S5000x40_1_1_0_0_n_n.rhsIdx i q 0).val = (i 1).val := by
  unfold DotDims.rhsIdx
  rw [dif_neg (show ¬(0 : Fin S40x64.rank) ∈ dot_S5000x64_S40x64_S5000x40_1_1_0_0_n_n.rhsBatch by decide), dif_pos (show (0 : Fin S40x64.rank) ∈ dot_S5000x64_S40x64_S5000x40_1_1_0_0_n_n.rhsNonContracting by decide)]
  rfl
theorem rhs_1 (i : S5000x40.Idx) (q : dot_S5000x64_S40x64_S5000x40_1_1_0_0_n_n.contr.Idx) :
    (dot_S5000x64_S40x64_S5000x40_1_1_0_0_n_n.rhsIdx i q 1).val = (q ⟨0, by decide⟩).val :=
  dot_S5000x64_S40x64_S5000x40_1_1_0_0_n_n.rhsIdx_val_of_single rfl i q

/-- Entry `i` of the body's stored value: the sum over the contracted axis of the clamped block's and `W2`'s products. -/
theorem pay_apply (X0 : Vec Ideal S5000x64 .f32) (X1 : Vec Ideal S40x64 .f32) (i : S5000x40.Idx) :
    k1_pay1 (F := Ideal) X0 X1 i
      = ∑ k : Fin 64, max (X0 (ix2 (i 0) k)) (Ideal.ofBits .f32 0x00000000#32) * X1 (ix2 (i 1) k) := by
  unfold k1_pay1
  simp only [matmul]
  rw [Ideal.matmul_constant_zero_apply, ← Equiv.sum_comp (contrEquiv1 dot_S5000x64_S40x64_S5000x40_1_1_0_0_n_n 64 rfl rfl).symm]
  refine Finset.sum_congr rfl fun k _ => ?_
  have hk := contrEquiv1_symm_val dot_S5000x64_S40x64_S5000x40_1_1_0_0_n_n 64 rfl rfl k
  have el : dot_S5000x64_S40x64_S5000x40_1_1_0_0_n_n.lhsIdx i ((contrEquiv1 dot_S5000x64_S40x64_S5000x40_1_1_0_0_n_n 64 rfl rfl).symm k) = ix2 (i 0) k := funext fun a => Fin.ext (by
    match a with
    | ⟨0, _⟩ => exact lhs_0 _ _
    | ⟨1, _⟩ => exact (lhs_1 _ _).trans hk)
  have er : dot_S5000x64_S40x64_S5000x40_1_1_0_0_n_n.rhsIdx i ((contrEquiv1 dot_S5000x64_S40x64_S5000x40_1_1_0_0_n_n 64 rfl rfl).symm k) = ix2 (i 1) k := funext fun a => Fin.ext (by
    match a with
    | ⟨0, _⟩ => exact rhs_0 _ _
    | ⟨1, _⟩ => exact (rhs_1 _ _).trans hk)
  rw [truncf_apply, truncf_apply, el, er, shapeCast_self]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the three windows' blocks sit at point `t`: the row blocks of `h` and of the output are the `t`-th, `W2` is whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the second layer of the arrays the region finds. -/
theorem flushed_eq (c : Dev nD) (t : Fin cfg1.N) :
    (dat1 V c).flushed 2 t = ((cfg1.win 2).blk t).view.read (Elt Ideal)
      (Cert.Shared.layer2 (F := Ideal) (V c main_v43) (V c main_arg2)) := by
  show (cfg1.win 2).cut (grid1.coords t) ((dat1 V c).after 2 t) = _
  rw [after1_2]
  unfold out1_2
  rw [View.canon_unit_zero hz]
  simp only [View.ld_unit_zero (S := S5000x64) hz, View.ld_unit_zero (S := S40x64) hz]
  obtain ⟨e0, e1, e2, e3, e4, e5⟩ := idx_facts t
  funext j
  show k1_pay1 (F := Ideal) (iblk1 V c 0 t) (iblk1 V c 1 t) j
    = Cert.Shared.layer2 (F := Ideal) (V c main_v43) (V c main_arg2) (((cfg1.win 2).blk t).view.emb j)
  refine (pay_apply (iblk1 V c 0 t) (iblk1 V c 1 t) j).trans ?_
  refine Eq.trans ?_ (Cert.Shared.layer2_apply (V c main_v43) (V c main_arg2) (((cfg1.win 2).blk t).view.emb j)).symm
  refine Finset.sum_congr rfl fun k _ => ?_
  have hj0 : (j 0).val < 5000 := (j 0).isLt
  have hj1 : (j 1).val < 40 := (j 1).isLt
  have hA : iblk1 V c 0 t (ix2 (j 0) k)
      = V c main_v43 (Cert.ReferenceIdeal.Read.lidx_main_v47 (((cfg1.win 2).blk t).view.emb j) k) := by
    show V c main_v43 (((cfg1.win 0).blk t).view.emb (ix2 (j 0) k)) = _
    refine congrArg (V c main_v43) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  have hB : iblk1 V c 1 t (ix2 (j 1) k)
      = V c main_arg2 (Cert.ReferenceIdeal.Read.idx_main_v46 (Cert.ReferenceIdeal.Read.ridx_main_v47 (((cfg1.win 2).blk t).view.emb j) k)) := by
    show V c main_arg2 (((cfg1.win 1).blk t).view.emb (ix2 (j 1) k)) = _
    refine congrArg (V c main_arg2) ?_
    funext a; apply Fin.ext
    match a with
    | ⟨0, _⟩ => show win1_1.index t (0 : Fin 2) * 40 + 1 * (j 1).val = win1_2.index t (1 : Fin 2) * 40 + 1 * (j 1).val; omega
    | ⟨1, _⟩ => show win1_1.index t (1 : Fin 2) * 64 + 1 * k.val = k.val; omega
  rw [hA, hB]

/-- An index of the output array is in point `t`'s block iff each coordinate is in the block's range on its axis. -/
theorem mem_blk (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v44).slice (win1_2.rect t)).set ↔ _
  rw [View.set_slice_whole, Rect.mem_set_unit]
  exact Iff.rfl

/-- Every entry of the output array is written by some point: row `r` by point `r / 5000`. -/
theorem cover (i : S100000x40.Idx) :
    ∃ t : Fin cfg1.N, (cfg1.win 2).flush t = true ∧ i ∈ ((cfg1.win 2).blk t).view.set := by
  have h0 : (i 0).val < 100000 := (i 0).isLt
  have h1 : (i 1).val < 40 := (i 1).isLt
  obtain ⟨t, ht⟩ : ∃ t : Fin cfg1.N, t.val = (i 0).val / 5000 := ⟨⟨(i 0).val / 5000, Nat.lt_of_lt_of_eq (by omega) N_1.symm⟩, rfl⟩
  obtain ⟨-, -, -, -, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- The output array after the region: the second layer of the arrays the region finds. -/
theorem final (c : Dev nD) :
    (dat1 V c).arrAt 2 cfg1.N = Cert.Shared.layer2 (F := Ideal) (V c main_v43) (V c main_arg2) :=
  (dat1 V c).arrAt_eq_of_cover 2 _ (fun t _ => flushed_eq V c t) cover

end Cert.KernelIdeal.Lin1

end
-- ==== Proof.KValue.lean ====
/-
  The kernel program's result as a function of its arguments.

  The launch leaves the result array at the last segment boundary's contents. Read backwards: the last host stretch
  aggregates the second pallas_call's output; that output is the second layer of the array the middle stretch wrote,
  which aggregates the first pallas_call's output, the product `x · W1ᵀ`. The adjacency data `rows`, `cols`, `w` are
  written by the first three stretches from the edge list and touched by nothing afterwards, and no stretch or region
  writes an argument. So the result is the reference's last stage of the four arguments.
-/
import proofs.«106542_j66726611911374_1_alg».proof.Proof.Shared
import proofs.«106542_j66726611911374_1_alg».proof.Proof.Lin0
import proofs.«106542_j66726611911374_1_alg».proof.Proof.Lin1

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Cert.Shared

/-! ## What each host stretch leaves alone -/

section Keeps
variable {F : FTy → Type} [FloatOps F] (V : Valuation τ sig (Elt F))

set_option maxHeartbeats 8000000 in
theorem mid_rows : StableHlo.after (hostOps1 (F := F)) V (Proc.devRef .tc main_v3) = V (Proc.devRef .tc main_v3) := by after_results_simp
set_option maxHeartbeats 8000000 in
theorem mid_cols : StableHlo.after (hostOps1 (F := F)) V (Proc.devRef .tc main_v6) = V (Proc.devRef .tc main_v6) := by after_results_simp
set_option maxHeartbeats 8000000 in
theorem mid_w : StableHlo.after (hostOps1 (F := F)) V (Proc.devRef .tc main_v29) = V (Proc.devRef .tc main_v29) := by after_results_simp
set_option maxHeartbeats 8000000 in
theorem mid_arg2 : StableHlo.after (hostOps1 (F := F)) V (Proc.devRef .tc main_arg2) = V (Proc.devRef .tc main_arg2) := by after_results_simp
set_option maxHeartbeats 16000000 in
theorem head_arg0 : head V (Proc.devRef .tc main_arg0) = V (Proc.devRef .tc main_arg0) := by after_results_simp
set_option maxHeartbeats 16000000 in
theorem head_arg1 : head V (Proc.devRef .tc main_arg1) = V (Proc.devRef .tc main_arg1) := by after_results_simp
set_option maxHeartbeats 16000000 in
theorem head_arg2 : head V (Proc.devRef .tc main_arg2) = V (Proc.devRef .tc main_arg2) := by after_results_simp

end Keeps

/-! ## The fold read back -/

variable (m : (ℓ : Loc nD τ sig) → Buf (Elt Ideal) ℓ) (ρ : Dev nD → PrngReg)

/-- The adjacency data at the first region's entry, from the edge list. -/
theorem rows3 (c : Dev nD) : W3 m ρ c (Proc.devRef .tc main_v3) = Cert.ReferenceIdeal.Read.val_main_v3 (F := Ideal) (m ((c : Thread nD τ).loc main_arg3)) :=
  head_rows (W0 m ρ c)
theorem cols3 (c : Dev nD) : W3 m ρ c (Proc.devRef .tc main_v6) = Cert.ReferenceIdeal.Read.val_main_v6 (F := Ideal) (m ((c : Thread nD τ).loc main_arg3)) :=
  head_cols (W0 m ρ c)
theorem w3 (c : Dev nD) : W3 m ρ c (Proc.devRef .tc main_v29) = Cert.ReferenceIdeal.Read.val_main_v29 (F := Ideal) (m ((c : Thread nD τ).loc main_arg3)) :=
  head_w (W0 m ρ c)

/-- The first region writes none of them, -/
theorem rows4 (c : Dev nD) : W4 m ρ c (Proc.devRef .tc main_v3) = W3 m ρ c (Proc.devRef .tc main_v3) := W4_of_ne m ρ c main_v3 (by decide)
theorem cols4 (c : Dev nD) : W4 m ρ c (Proc.devRef .tc main_v6) = W3 m ρ c (Proc.devRef .tc main_v6) := W4_of_ne m ρ c main_v6 (by decide)
theorem w4 (c : Dev nD) : W4 m ρ c (Proc.devRef .tc main_v29) = W3 m ρ c (Proc.devRef .tc main_v29) := W4_of_ne m ρ c main_v29 (by decide)

/-- nor do the middle stretch and the second region. -/
theorem rows6 (c : Dev nD) : W6 m ρ c (Proc.devRef .tc main_v3) = W4 m ρ c (Proc.devRef .tc main_v3) :=
  (W6_of_ne m ρ c main_v3 (by decide)).trans (mid_rows (W4 m ρ c))
theorem cols6 (c : Dev nD) : W6 m ρ c (Proc.devRef .tc main_v6) = W4 m ρ c (Proc.devRef .tc main_v6) :=
  (W6_of_ne m ρ c main_v6 (by decide)).trans (mid_cols (W4 m ρ c))
theorem w6 (c : Dev nD) : W6 m ρ c (Proc.devRef .tc main_v29) = W4 m ρ c (Proc.devRef .tc main_v29) :=
  (W6_of_ne m ρ c main_v29 (by decide)).trans (mid_w (W4 m ρ c))

/-- The arguments as each region finds them. -/
theorem arg0_3 (c : Dev nD) : V3 m ρ c main_arg0 = m ((c : Thread nD τ).loc main_arg0) := head_arg0 (W0 m ρ c)
theorem arg1_3 (c : Dev nD) : V3 m ρ c main_arg1 = m ((c : Thread nD τ).loc main_arg1) := head_arg1 (W0 m ρ c)
theorem arg2_5 (c : Dev nD) : V5 m ρ c main_arg2 = m ((c : Thread nD τ).loc main_arg2) :=
  (mid_arg2 (W4 m ρ c)).trans ((W4_of_ne m ρ c main_arg2 (by decide)).trans (head_arg2 (W0 m ρ c)))

/-- The first pallas_call's output array: `x · W1ᵀ`. -/
theorem out0 (c : Dev nD) : W4 m ρ c (Proc.devRef .tc main_v30)
    = Cert.ReferenceIdeal.Read.val_main_v31 (F := Ideal) (m ((c : Thread nD τ).loc main_arg0)) (m ((c : Thread nD τ).loc main_arg1)) := by
  refine (W4_arr m ρ c 2).trans ((Lin0.final (V3 m ρ) c).trans ?_)
  rw [arg0_3, arg1_3]

/-- The second pallas_call's input array: its aggregation. -/
theorem in1 (c : Dev nD) : V5 m ρ c main_v43
    = spmm64 (Cert.ReferenceIdeal.Read.val_main_v3 (F := Ideal) (m ((c : Thread nD τ).loc main_arg3)))
        (Cert.ReferenceIdeal.Read.val_main_v6 (F := Ideal) (m ((c : Thread nD τ).loc main_arg3)))
        (Cert.ReferenceIdeal.Read.val_main_v29 (F := Ideal) (m ((c : Thread nD τ).loc main_arg3)))
        (Cert.ReferenceIdeal.Read.val_main_v31 (F := Ideal) (m ((c : Thread nD τ).loc main_arg0)) (m ((c : Thread nD τ).loc main_arg1))) := by
  refine (tail1 (W4 m ρ c)).trans ?_
  rw [rows4, cols4, w4, rows3, cols3, w3, out0]

/-- The second pallas_call's output array: the second layer of that. -/
theorem out1 (c : Dev nD) : W6 m ρ c (Proc.devRef .tc main_v44)
    = layer2 (V5 m ρ c main_v43) (m ((c : Thread nD τ).loc main_arg2)) := by
  refine (W6_arr m ρ c 2).trans ((Lin1.final (V5 m ρ) c).trans ?_)
  rw [arg2_5]

/-- THE RESULT: the last boundary's contents at the result array are the reference's last stage of the arguments. -/
theorem result (c : Dev nD) : W7 m ρ c (Proc.devRef .tc main_v57)
    = Cert.ReferenceIdeal.Read.val_main_v60 (F := Ideal) (m ((c : Thread nD τ).loc main_arg0)) (m ((c : Thread nD τ).loc main_arg1))
        (m ((c : Thread nD τ).loc main_arg2)) (m ((c : Thread nD τ).loc main_arg3)) := by
  refine (tail2 (W6 m ρ c)).trans ?_
  rw [rows6, cols6, w6, rows4, cols4, w4, rows3, cols3, w3, out1, in1, ref_eq]

end Cert.KernelIdeal.KValue

end
-- ==== Proof.lean ====
/-
  The certificate of a two-layer graph convolution: the kernel program against its jnp reference, over the extended reals.

  Both programs build the same normalised adjacency from the edge list (row and column index vectors with the self loops
  appended, degrees by a scatter-add of ones, edge weights `rsqrt(deg[rows e]) · rsqrt(deg[cols e])`, zero where the degree
  is not positive) and aggregate with it twice by gather, scale and scatter-add. They differ only in the two dense
  layers. The reference computes `x · W1ᵀ` and `max(h, 0) · W2ᵀ` as whole `dot_general`s on transposed weights; the
  kernel program computes each in a pallas_call over 20 row blocks of 5000 rows, one matrix product per block into a
  zero accumulator on operands narrowed to bf16, the maximum with zero fused into the second. On the extended reals the
  narrowing is the identity and both products are the same finite sum `∑ k, a[i, k] · b[j, k]`, so each pallas_call's
  output array is the reference's stage entry by entry (Proof/Lin0.lean, Proof/Lin1.lean); the host stretches around them
  are the reference's own operations (Proof/Shared.lean); and the program's result, read back through its segments, is
  the reference's last stage of the four arguments (Proof/KValue.lean). No law used needs the inputs finite.

  The three frames: the two kernel programs' are the generated frame certificates; the reference's is its run with the
  result dropped. The idealization rewrote nothing, so `preserves` is `True`.
-/
import proofs.«106542_j66726611911374_1_alg».proof.Defs
import proofs.«106542_j66726611911374_1_alg».proof.Proof.Gen.Kernel
import proofs.«106542_j66726611911374_1_alg».proof.Proof.Gen.Kernel.Skeleton
import proofs.«106542_j66726611911374_1_alg».proof.Proof.Gen.Kernel.Launch
import proofs.«106542_j66726611911374_1_alg».proof.Proof.Gen.Kernel.Points
import proofs.«106542_j66726611911374_1_alg».proof.Proof.Gen.Kernel.Frame
import proofs.«106542_j66726611911374_1_alg».proof.Proof.Gen.KernelIdeal
import proofs.«106542_j66726611911374_1_alg».proof.Proof.Gen.KernelIdeal.Skeleton
import proofs.«106542_j66726611911374_1_alg».proof.Proof.Gen.KernelIdeal.Launch
import proofs.«106542_j66726611911374_1_alg».proof.Proof.Gen.KernelIdeal.Points
import proofs.«106542_j66726611911374_1_alg».proof.Proof.Gen.KernelIdeal.Frame
import proofs.«106542_j66726611911374_1_alg».proof.Proof.Gen.ReferenceIdeal
import proofs.«106542_j66726611911374_1_alg».proof.Proof.Gen.Pre_finite_inputs
import proofs.«106542_j66726611911374_1_alg».proof.Proof.RefRun
import proofs.«106542_j66726611911374_1_alg».proof.Proof.RefRead
import proofs.«106542_j66726611911374_1_alg».proof.Proof.KRun
import proofs.«106542_j66726611911374_1_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last stage of the arguments in their result arrays: the kernel program by
    its launch read back through the segments, the reference by its run, from memories that agree on the arguments. -/
theorem algebraic : Cert.algebraic_KernelIdeal_ReferenceIdeal := by
  intro m ρ m' ρ' _ hagree
  refine ⟨fun c => Cert.ReferenceIdeal.Read.val_main_v60 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KValue.result m ρ c), (h c).2⟩)
      (Cert.KernelIdeal.KRun.run_out (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v60_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
